-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x192x56x56 : Shape := ⟨4, ![64, 192, 56, 56]⟩
abbrev S_ : Shape := ⟨0, ![]⟩

class Facts : Prop where
  bcast_S_S64x192x56x56 : S_.BroadcastsInDim S64x192x56x56 (![] : Fin 0 → Fin S64x192x56x56.rank)
  reducesTo_S64x192x56x56_S_d0_1_2_3 : S64x192x56x56.ReducesTo [0, 1, 2, 3] S_
  h_S_ : 0 < S_.numel

variable [Facts]

def fn {F : FTy → Type} [FloatOps F] (main_arg0 : FVec F S64x192x56x56 .f32) : IVec S_ 1 :=
  let main_v0 : FVec F S64x192x56x56 .f32 := Host.absf main_arg0
  let main_cst : FVec F S_ .f32 := constant S_ .f32 0x7F800000#32
  let main_v1 : FVec F S64x192x56x56 .f32 := broadcastInDim S64x192x56x56 ![] bcast_S_S64x192x56x56 main_cst
  let main_v2 : IVec S64x192x56x56 1 := cmpf .olt main_v0 main_v1
  let main_c : IVec S_ 1 := constantI S_ 1 1#1
  let main_v3 : IVec S_ 1 := (fun x v => Host.reduce IntOp.andi x v reducesTo_S64x192x56x56_S_d0_1_2_3 h_S_) main_v2 main_c
  main_v3
-- ==== Kernel.lean ====
abbrev S64x192x56x56 : Shape := ⟨4, ![64, 192, 56, 56]⟩
abbrev S64x56x56x192 : Shape := ⟨4, ![64, 56, 56, 192]⟩
abbrev S200704x192 : Shape := ⟨2, ![200704, 192]⟩
abbrev S200704x384 : Shape := ⟨2, ![200704, 384]⟩
abbrev S4096x192 : Shape := ⟨2, ![4096, 192]⟩
abbrev S4096x384 : Shape := ⟨2, ![4096, 384]⟩
abbrev S192x384 : Shape := ⟨2, ![192, 384]⟩
abbrev S64x56x56x384 : Shape := ⟨4, ![64, 56, 56, 384]⟩
abbrev S64x384x56x56 : Shape := ⟨4, ![64, 384, 56, 56]⟩

abbrev nBuf : Space → Nat
  | .hbm => 6
  | .vmem => 4
  | .smem => 0
  | _ => 0

abbrev bufTy : (tb : Table) → Fin (tcTables nBuf tb) → BufTy
  | .hbm, ⟨0, _⟩ => ⟨S64x192x56x56, .f32⟩
  | .hbm, ⟨1, _⟩ => ⟨S64x56x56x192, .f32⟩
  | .hbm, ⟨2, _⟩ => ⟨S200704x192, .f32⟩
  | .hbm, ⟨3, _⟩ => ⟨S200704x384, .f32⟩
  | .hbm, ⟨4, _⟩ => ⟨S64x56x56x384, .f32⟩
  | .hbm, ⟨5, _⟩ => ⟨S64x384x56x56, .f32⟩
  | .local _ .vmem, ⟨0, _⟩ => ⟨S4096x192, .f32⟩
  | .local _ .vmem, ⟨1, _⟩ => ⟨S4096x192, .f32⟩
  | .local _ .vmem, ⟨2, _⟩ => ⟨S4096x384, .f32⟩
  | .local _ .vmem, ⟨3, _⟩ => ⟨S4096x384, .f32⟩
  | _, _ => ⟨S64x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S64x192x56x56_S64x56x56x192_0_2_3_1 : S64x192x56x56.Transposes [0, 2, 3, 1] S64x56x56x192
  shapeCasts_S64x56x56x192_S200704x192 : S64x56x56x192.ShapeCasts S200704x192
  iota_S192x384_d0_w32 : S192x384.Iotas .tc 32 [0]
  iota_S192x384_d1_w32 : S192x384.Iotas .tc 32 [1]
  inb_S4096x192_S4096x192_0_0 : ∀ a, (![0, 0] : Fin 2 → Nat) a + S4096x192.size a ≤ S4096x192.size a
  h_S4096x192 : 0 < S4096x192.numel
  shapeCasts_S4096x192_S4096x192 : S4096x192.ShapeCasts S4096x192
  inb_S4096x384_S4096x384_0_0 : ∀ a, (![0, 0] : Fin 2 → Nat) a + S4096x384.size a ≤ S4096x384.size a
  h_S4096x384 : 0 < S4096x384.numel
  shapeCasts_S200704x384_S64x56x56x384 : S200704x384.ShapeCasts S64x56x56x384
  transposes_S64x56x56x384_S64x384x56x56_0_3_1_2 : S64x56x56x384.Transposes [0, 3, 1, 2] S64x384x56x56
  dot_S4096x192_S192x384_S4096x384_1_0_0_1_n_n_wf : DotDims.WF S4096x192 S192x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x192.size a ≤ S200704x192.size a
  hwx0_0 : ∀ i : grid0.Coords, EltTy.bits .f32 = 32 ∨ (Rect.block (s := S200704x192) S4096x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x384.size a ≤ S200704x384.size a
  hwx0_1 : ∀ i : grid0.Coords, EltTy.bits .f32 = 32 ∨ (Rect.block (s := S200704x384) S4096x384.size (cc0_transform_1 i) (hinb0_1 i)).WholeWords (EltTy.packing .f32)

variable [Facts₀]

def dot_S4096x192_S192x384_S4096x384_1_0_0_1_n_n : DotDims S4096x192 S192x384 S4096x384 where
  lhsContracting := [1]
  rhsContracting := [0]
  lhsNonContracting := [0]
  rhsNonContracting := [1]
  lhsBatch := []
  rhsBatch := []
  wf := dot_S4096x192_S192x384_S4096x384_1_0_0_1_n_n_wf

abbrev win0_0 : Pipeline.Window sig grid0 :=
  Pipeline.Window.ofSpec (Memref.whole main_v1) S4096x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x192x56x56 : Shape := ⟨4, ![64, 192, 56, 56]⟩
abbrev S192 : Shape := ⟨1, ![192]⟩
abbrev S_ : Shape := ⟨0, ![]⟩
abbrev S64x384x56x56 : Shape := ⟨4, ![64, 384, 56, 56]⟩
abbrev S192x1 : Shape := ⟨2, ![192, 1]⟩

abbrev nBuf : Space → Nat
  | .hbm => 13
  | .vmem => 0
  | .smem => 0
  | _ => 0

abbrev bufTy : (tb : Table) → Fin (tcTables nBuf tb) → BufTy
  | .hbm, ⟨0, _⟩ => ⟨S64x192x56x56, .f32⟩
  | .hbm, ⟨1, _⟩ => ⟨S192, .i32⟩
  | .hbm, ⟨2, _⟩ => ⟨S_, .f32⟩
  | .hbm, ⟨3, _⟩ => ⟨S64x384x56x56, .f32⟩
  | .hbm, ⟨4, _⟩ => ⟨S_, .i32⟩
  | .hbm, ⟨5, _⟩ => ⟨S192, .i32⟩
  | .hbm, ⟨6, _⟩ => ⟨S192, .i1⟩
  | .hbm, ⟨7, _⟩ => ⟨S_, .i32⟩
  | .hbm, ⟨8, _⟩ => ⟨S192, .i32⟩
  | .hbm, ⟨9, _⟩ => ⟨S192, .i32⟩
  | .hbm, ⟨10, _⟩ => ⟨S192, .i32⟩
  | .hbm, ⟨11, _⟩ => ⟨S192x1, .i32⟩
  | .hbm, ⟨12, _⟩ => ⟨S64x384x56x56, .f32⟩
  | _, _ => ⟨S64x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S64x384x56x56 : S_.BroadcastsInDim S64x384x56x56 (![] : Fin 0 → Fin S64x384x56x56.rank)
  bcast_S_S192 : S_.BroadcastsInDim S192 (![] : Fin 0 → Fin S192.rank)
  bcast_S192_S192x1_0 : S192.BroadcastsInDim S192x1 (![0] : Fin 1 → Fin S192x1.rank)
  scatter_S64x384x56x56_S192x1_S64x192x56x56_023_1_1_1_wf : ScatterDims.WF S64x384x56x56 S192x1 S64x192x56x56 [0, 2, 3] [1] [1] 1

variable [Facts₀]

def scatter_S64x384x56x56_S192x1_S64x192x56x56_023_1_1_1 : ScatterDims S64x384x56x56 S192x1 S64x192x56x56 where
  updateWindowDims := [0, 2, 3]
  insertedWindowDims := [1]
  scatterDimsToOperandDims := [1]
  indexVectorDim := 1
  wf := scatter_S64x384x56x56_S192x1_S64x192x56x56_023_1_1_1_wf

class Facts : Prop extends Facts₀ where

variable [Facts]
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.Spread.lean ====
/-
  The function both programs compute.

  From an array `x` of extents [64, 192, 56, 56] the result has extents [64, 384, 56, 56]: its channel axis (axis 1)
  is twice as long, the even channel `2c` holds channel `c` of `x`, and every odd channel holds zero:

      spread x [b, j, h, w] = x [b, j / 2, h, w]   if j is even,
                            = 0                    if j is odd.

  Stated here over explicit coordinates, with no program in sight; the kernel's side and the reference's side each
  prove that their result array is `spread` of the argument.
-/
import Idealize.ShloMosaic.PureOps.Ideal
import Idealize.ShloMosaic.Lib.ValueIdx

noncomputable section

namespace Cert.Spread

open Idealize.ShloMosaic Idealize.ShloMosaic.ValueIdx

/-- The argument's extents and the result's. -/
abbrev SIn : Shape := ⟨4, ![64, 192, 56, 56]⟩
abbrev SOut : Shape := ⟨4, ![64, 384, 56, 56]⟩

/-- Half of a result channel: the argument channel an even result channel comes from. -/
def half (j : Fin 384) : Fin 192 := ⟨j.val / 2, by have := j.isLt; omega⟩

theorem half_val (j : Fin 384) : (half j).val = j.val / 2 := rfl

/-- The even channel `2c` comes from channel `c`. -/
theorem half_double (c : Fin 192) (h : 2 * c.val < 384) : half ⟨2 * c.val, h⟩ = c :=
  Fin.ext (by show 2 * c.val / 2 = c.val; omega)

/-- The argument spread over the even channels, zeros on the odd ones. -/
def spread (x : FVec Ideal SIn .f32) : FVec Ideal SOut .f32 := fun i =>
  if (i 1).val % 2 = 0 then x (ix4 (i 0) (half (i 1)) (i 2) (i 3)) else 0

/-- `spread` at explicit coordinates. -/
theorem spread_apply (x : FVec Ideal SIn .f32) (b : Fin 64) (j : Fin 384) (h w : Fin 56) :
    spread x (ix4 b j h w) = if j.val % 2 = 0 then x (ix4 b (half j) h w) else 0 := rfl

end Cert.Spread

end
-- ==== Proof.KPayload.lean ====
/-
  The kernel body's one stored value, read at an index.

  The body builds the 192 × 384 expansion matrix `E` with `E[c, j] = 1` when `2c = j` and `0` otherwise (two integer
  ramps, a doubling, a comparison and a select between the constants one and zero) and stores the product of its input
  block with `E`, accumulated from zero. On the extended reals the entry of that product at row `a` and column `j` is
  `Σ_c v[a, c] · E[c, j]`. Column `j` of `E` has at most one nonzero entry: for even `j` the one at row `j / 2`, for odd
  `j` none. A product with zero is zero for every extended real, infinite ones included, so the sum keeps exactly the
  term `v[a, j / 2] · 1` for even `j` and is `0` for odd `j`; no finiteness is used.
-/
import proofs.«132591_g80788334838274_cont_9to1_m_29_5_alg».proof.Proof.Gen.KernelIdeal.Skeleton
import proofs.«132591_g80788334838274_cont_9to1_m_29_5_alg».proof.Proof.LibPlainMatmul
import proofs.«132591_g80788334838274_cont_9to1_m_29_5_alg».proof.Proof.Spread
import Idealize.ShloMosaic.Lib.Pipeline.Value
import Idealize.ShloMosaic.Lib.ValueIdx
import Idealize.ShloMosaic.Lib.IdealHost

noncomputable section

namespace Cert.KernelIdeal.Payload

open Cert.KernelIdeal Cert.KernelIdeal.Gen Cert.Spread Idealize.ShloMosaic Idealize.ShloMosaic.ValueIdx
open scoped BigOperators

/-- Doubling a row number below 192 and comparing with a column number below 384, on 32-bit words, is the comparison
    of the natural numbers: nothing wraps. -/
theorem double_eq_word (c : Fin 192) (j : Fin 384) :
    IntOp.cmpi .eq (IntOp.muli 2#32 (BitVec.ofNat 32 c.val)) (BitVec.ofNat 32 j.val) = if 2 * c.val = j.val then 1#1 else 0#1 := by
  have hc := c.isLt
  have hj := j.isLt
  have key : (IntOp.muli 2#32 (BitVec.ofNat 32 c.val) == BitVec.ofNat 32 j.val) = decide (2 * c.val = j.val) := by
    rw [Bool.eq_iff_iff, beq_iff_eq, decide_eq_true_iff, ← BitVec.toNat_inj]
    show (2#32 * BitVec.ofNat 32 c.val).toNat = (BitVec.ofNat 32 j.val).toNat ↔ _
    rw [BitVec.toNat_mul, BitVec.toNat_ofNat, BitVec.toNat_ofNat, BitVec.toNat_ofNat]
    rw [Nat.mod_eq_of_lt (by omega : c.val < 2 ^ 32), Nat.mod_eq_of_lt (by omega : j.val < 2 ^ 32),
      Nat.mod_eq_of_lt (by omega : 2 < 2 ^ 32), Nat.mod_eq_of_lt (by omega : 2 * c.val < 2 ^ 32)]
  show BitVec.ofBool (IntOp.muli 2#32 (BitVec.ofNat 32 c.val) == BitVec.ofNat 32 j.val) = _
  rw [key]
  by_cases h : 2 * c.val = j.val
  · rw [if_pos h, decide_eq_true h]; rfl
  · rw [if_neg h, decide_eq_false h]; rfl

/-- The expansion matrix, as the body builds it. -/
def expand : FVec Ideal S192x384 .f32 :=
  select (cmpi .eq (muli (broadcast S192x384 2#32) (iota .tc S192x384 32 [0] Facts₀.iota_S192x384_d0_w32))
      (iota .tc S192x384 32 [1] Facts₀.iota_S192x384_d1_w32))
    (broadcast S192x384 (Scalar.ofBits (F := Ideal) .f32 0x3F800000#32))
    (broadcast S192x384 (Scalar.ofBits (F := Ideal) .f32 0x00000000#32))

/-- Its entry at row `c`, column `j`: one when `2c = j`, zero otherwise. -/
theorem expand_apply (c : Fin 192) (j : Fin 384) : expand (ix2 c j) = if 2 * c.val = j.val then 1 else 0 := by
  unfold expand
  rw [select_apply]
  show Scalar.select (IntOp.cmpi .eq (IntOp.muli 2#32 (iota .tc S192x384 32 [0] Facts₀.iota_S192x384_d0_w32 (ix2 c j)))
      (iota .tc S192x384 32 [1] Facts₀.iota_S192x384_d1_w32 (ix2 c j))) (Ideal.ofBits .f32 0x3F800000#32) (Ideal.ofBits .f32 0x00000000#32) = _
  rw [iota_single_apply, iota_single_apply]
  show Scalar.select (IntOp.cmpi .eq (IntOp.muli 2#32 (BitVec.ofNat 32 c.val)) (BitVec.ofNat 32 j.val)) _ _ = _
  rw [double_eq_word, Ideal.ofBits_one_f32, Ideal.ofBits_zero_f32]
  by_cases h : 2 * c.val = j.val
  · rw [if_pos h, if_pos h, select_one]
  · rw [if_neg h, if_neg h, select_zero]

/-- THE STORED VALUE at row `a`, column `j`: the input block's entry at column `j / 2` for even `j`, zero for odd `j`. -/
theorem pay_apply (v : FVec Ideal S4096x192 .f32) (a : Fin 4096) (j : Fin 384) :
    k0_pay1 (F := Ideal) v (ix2 a j) = if j.val % 2 = 0 then v (ix2 a (half j)) else 0 := by
  have hm : k0_pay1 (F := Ideal) v
      = matmul dot_S4096x192_S192x384_S4096x384_1_0_0_1_n_n none v expand (constant S4096x384 .f32 0x00000000#32) := by
    unfold k0_pay1 expand
    dsimp only
    rw [shapeCast_self]
  rw [hm]
  refine (Cert.PlainMatmul.matmul_zero_apply dot_S4096x192_S192x384_S4096x384_1_0_0_1_n_n rfl rfl rfl rfl rfl rfl none v expand a j).trans ?_
  simp only [expand_apply]
  have hj := j.isLt
  by_cases hp : j.val % 2 = 0
  · rw [if_pos hp, Finset.sum_eq_single (half j)]
    · rw [if_pos (by rw [half_val]; omega), mul_one]
    · intro c _ hc
      rw [if_neg (fun e => hc (Fin.ext (by rw [half_val]; omega))), mul_zero]
    · intro h; exact absurd (Finset.mem_univ _) h
  · rw [if_neg hp]
    refine Finset.sum_eq_zero fun c _ => ?_
    rw [if_neg (by omega), mul_zero]

end Cert.KernelIdeal.Payload

end
-- ==== Proof.KBlocks.lean ====
/-
  From the kernel's blocks to its whole result array.

  The region runs over 49 grid points. Point `t` fetches rows `4096·t … 4096·t + 4095` of the 200704 × 192 input
  array (all 192 columns) and writes back the same rows of the 200704 × 384 result array (all 384 columns). What it
  writes is the body's stored value of the fetched block, and that value at row `p`, column `q` of the block is the
  block's entry at `(p, q / 2)` for even `q` and zero for odd `q`. Row `p` of block `t` is row `4096·t + p` of the array
  on both sides, and the column is the array's column, so every point writes back its block of ONE function of the input
  array: row by row, the input row spread over the even columns with zeros on the odd ones (`rowsSpread`). The 49 blocks
  tile the result array (row `r` lies in block `r / 4096`), so after the region the result array is `rowsSpread` of
  the input array as the region found it.
-/
import proofs.«132591_g80788334838274_cont_9to1_m_29_5_alg».proof.Proof.Gen.KernelIdeal.Frame
import proofs.«132591_g80788334838274_cont_9to1_m_29_5_alg».proof.Proof.KPayload
import Idealize.ShloMosaic.Lib.Pipeline.Value

set_option maxRecDepth 16384

noncomputable section

namespace Cert.KernelIdeal.Blocks

open Cert.KernelIdeal Cert.KernelIdeal.Gen Cert.KernelIdeal.Payload Cert.Spread
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Row by row: the row spread over the even columns, zeros on the odd ones. -/
def rowsSpread (a : FVec Ideal S200704x192 .f32) : FVec Ideal S200704x384 .f32 := fun i =>
  if (i 1).val % 2 = 0 then a (ix2 (i 0) (half (i 1))) else 0

theorem rowsSpread_apply (a : FVec Ideal S200704x192 .f32) (r : Fin 200704) (q : Fin 384) :
    rowsSpread a (ix2 r q) = if q.val % 2 = 0 then a (ix2 r (half q)) else 0 := rfl

theorem origin_zero : (![0, 0] : Fin 2 → Nat) = fun _ => 0 := funext fun a => by fin_cases a <;> rfl

/-- The printed index maps, decided over the 49 points: both windows sit at block row `t` and block column 0. -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 48 :=
  (by decide +kernel : ∀ t : Fin grid0.N, _)

/-- Every block row is some point's. -/
theorem index_onto : ∀ q0 : Fin 49, ∃ t : Fin cfg0.N, win0_1.index t = ![q0.val, 0] :=
  (by decide +kernel : ∀ q0 : Fin 49, ∃ t : Fin grid0.N, win0_1.index t = ![q0.val, 0])

/-- WHAT POINT `t` WRITES BACK is block `t` of `rowsSpread` of the input array as the region finds it. -/
theorem flushed_eq (c : Dev nD) (t : Fin cfg0.N) :
    (dats m 0 c).flushed 1 t = ((cfg0.win 1).blk t).view.read (Elt Ideal) (rowsSpread (V m c main_v1)) := by
  show (cfg0.win 1).cut (grid0.coords t) ((dats m 0 c).after 1 t) = _
  rw [after0_1]
  unfold out0_1
  rw [View.canon_unit_zero origin_zero]
  simp only [View.ld_unit_zero (S := S4096x192) origin_zero]
  obtain ⟨e0, e1, e2, e3⟩ := index_facts t
  funext y
  obtain ⟨p, q, rfl⟩ : ∃ (p : Fin 4096) (q : Fin 384), y = ix2 p q := ⟨y 0, y 1, eq_ix2 y⟩
  refine (pay_apply (iblk m c 0 t) p q).trans ?_
  have hp := p.isLt
  have hq := q.isLt
  -- the array index under block index (p, q) of the result window
  have hemb : ((cfg0.win 1).blk t).view.emb (ix2 p q)
      = (ix2 (⟨win0_1.index t (0 : Fin 2) * 4096 + p.val, by omega⟩ : Fin 200704) q : S200704x384.Idx) := by
    funext a; apply Fin.ext
    match a with
    | ⟨0, _⟩ => show win0_1.index t (0 : Fin 2) * 4096 + 1 * p.val = win0_1.index t (0 : Fin 2) * 4096 + p.val; omega
    | ⟨1, _⟩ => show win0_1.index t (1 : Fin 2) * 384 + 1 * q.val = q.val; omega
  show _ = rowsSpread (V m c main_v1) (((cfg0.win 1).blk t).view.emb (ix2 p q))
  rw [hemb, rowsSpread_apply]
  by_cases hpar : q.val % 2 = 0
  · rw [if_pos hpar, if_pos hpar]
    show V m c main_v1 (((cfg0.win 0).blk t).view.emb (ix2 p (half q))) = _
    refine congrArg (V m c main_v1) ?_
    funext a; apply Fin.ext
    match a with
    | ⟨0, _⟩ => show win0_0.index t (0 : Fin 2) * 4096 + 1 * p.val = win0_1.index t (0 : Fin 2) * 4096 + p.val; omega
    | ⟨1, _⟩ => show win0_0.index t (1 : Fin 2) * 192 + 1 * (half q).val = (half q).val; omega
  · rw [if_neg hpar, if_neg hpar]

/-- An index of the result array is in point `t`'s block iff each coordinate is in the block's range on its axis. -/
theorem mem_blk (t : Fin cfg0.N) (i : S200704x384.Idx) :
    i ∈ ((cfg0.win 1).blk t).view.set ↔ ∀ a : Fin 2, win0_1.index t a * S4096x384.size a ≤ (i a).val
      ∧ (i a).val < win0_1.index t a * S4096x384.size a + S4096x384.size a := by
  show i ∈ ((View.whole main_v2).slice (win0_1.rect t)).set ↔ _
  rw [View.set_slice_whole, Rect.mem_set_unit]
  exact Iff.rfl

/-- The blocks tile the result array: row `r` lies in block `r / 4096`. -/
theorem cover (i : S200704x384.Idx) : ∃ t : Fin cfg0.N, (cfg0.win 1).flush t = true ∧ i ∈ ((cfg0.win 1).blk t).view.set := by
  have hi0 : (i 0).val < 200704 := (i 0).isLt
  have hi1 : (i 1).val < 384 := (i 1).isLt
  obtain ⟨t, ht⟩ := index_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 384 ≤ (i 1).val ∧ (i 1).val < win0_1.index t (1 : Fin 2) * 384 + 384; omega

/-- THE RESULT ARRAY after the region: `rowsSpread` of the input array as the region found it. -/
theorem final (c : Dev nD) : (dats m 0 c).arrAt 1 cfg0.N = rowsSpread (V m c main_v1) :=
  (dats m 0 c).arrAt_eq_of_cover 1 (rowsSpread (V m c main_v1)) (fun t _ => flushed_eq m c t) cover

end Cert.KernelIdeal.Blocks

end
-- ==== Proof.KRun.lean ====
/-
  The idealized kernel's run, read as a value.

  Around its one region the program only re-lays data. Before the region: the argument `x` of extents [64, 192, 56, 56]
  is transposed to channel-last, [64, 56, 56, 192], and flattened to 200704 rows of 192 channels, so row
  `(b·56 + h)·56 + w` holds `x[b, ·, h, w]`. The region spreads every row over the even columns of a 200704 × 384 array
  with zeros on the odd columns (the blocks module). After the region: that array is unflattened to [64, 56, 56, 384]
  and transposed back to channel-second, [64, 384, 56, 56]. Reading the four re-layings at an index, the result at
  `[b, j, h, w]` is row `(b·56 + h)·56 + w`, column `j` of the spread rows: `x[b, j / 2, h, w]` for even `j`, zero for
  odd `j`. That is `spread x`.
-/
import proofs.«132591_g80788334838274_cont_9to1_m_29_5_alg».proof.Proof.KBlocks
import Idealize.ShloMosaic.Lib.StableHlo.Run
import Idealize.ShloMosaic.Lib.Pipeline.Value

set_option maxRecDepth 16384

noncomputable section

namespace Cert.KernelIdeal.RunValue

open Cert.KernelIdeal Cert.KernelIdeal.Gen Cert.KernelIdeal.Blocks Cert.Spread
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The row of the flattened arrays that holds position `(b, h, w)`. -/
def row (b : Fin 64) (h w : Fin 56) : Fin 200704 :=
  ⟨(b.val * 56 + h.val) * 56 + w.val, by have := b.isLt; have := h.isLt; have := w.isLt; omega⟩

theorem row_val (b : Fin 64) (h w : Fin 56) : (row b h w).val = (b.val * 56 + h.val) * 56 + w.val := rfl

/-- The region's input array, as the two host operations before the region leave it: the argument transposed to
    channel-last and flattened. -/
theorem input_eq (c : Dev nD) :
    (V m c main_v1 : FVec Ideal S200704x192 .f32)
      = shapeCast S200704x192 (transpose S64x56x56x192 [0, 2, 3, 1] (m ((c : Thread nD τ).loc main_arg0))
          Facts₀.transposes_S64x192x56x56_S64x56x56x192_0_2_3_1) Facts₀.shapeCasts_S64x56x56x192_S200704x192 := by
  show StableHlo.after hostOps0 (fun b => m (c, b)) (Proc.devRef .tc main_v1) = _
  after_results
  rfl

/-- Row `(b, h, w)`, channel `k` of the region's input array is `x[b, k, h, w]`. -/
theorem input_apply (c : Dev nD) (b : Fin 64) (h w : Fin 56) (k : Fin 192) :
    (V m c main_v1 : FVec Ideal S200704x192 .f32) (ix2 (row b h w) k) = m ((c : Thread nD τ).loc main_arg0) (ix4 b k h w) := by
  rw [input_eq]
  have hb := b.isLt; have hh := h.isLt; have hw := w.isLt; have hk := k.isLt
  refine (shapeCast_apply _ Facts₀.shapeCasts_S64x56x56x192_S200704x192 (ix2 (row b h w) k) (ix4 b h w k : S64x56x56x192.Idx) ?_).trans ?_
  · rw [Shape.rowMajor_val_four, Shape.rowMajor_val_two]
    show ((b.val * 56 + h.val) * 56 + w.val) * 192 + k.val = ((b.val * 56 + h.val) * 56 + w.val) * 192 + k.val
    rfl
  · refine transpose_apply [0, 2, 3, 1] _ Facts₀.transposes_S64x192x56x56_S64x56x56x192_0_2_3_1 (ix4 b h w k : S64x56x56x192.Idx)
      (ix4 b k h w : S64x192x56x56.Idx) fun a => ?_
    match a with
    | ⟨0, _⟩ => rfl
    | ⟨1, _⟩ => rfl
    | ⟨2, _⟩ => rfl
    | ⟨3, _⟩ => rfl

/-- THE RESULT, as the two host operations after the region leave it: `spread` of the argument. -/
theorem result_eq (c : Dev nD) :
    (Pipeline.afterTail₀ cfgs (dats m) 0 (V0 m) [hostOps1] c main_v4 : FVec Ideal S64x384x56x56 .f32)
      = spread (m ((c : Thread nD τ).loc main_arg0)) := by
  have htail : (Pipeline.afterTail₀ cfgs (dats m) 0 (V0 m) [hostOps1] c main_v4 : FVec Ideal S64x384x56x56 .f32)
      = transpose S64x384x56x56 [0, 3, 1, 2]
          (shapeCast S64x56x56x384 (rowsSpread (V m c main_v1)) Facts₀.shapeCasts_S200704x384_S64x56x56x384)
          Facts₀.transposes_S64x56x56x384_S64x384x56x56_0_3_1_2 := by
    unfold Pipeline.afterTail₀
    show StableHlo.after hostOps1 _ (Proc.devRef .tc main_v4) = _
    after_results
    have harr : Pipeline.withArrays (cfgs 0).spec c (V0 m c) (fun w => (dats m 0 c).arrAt w (cfgs 0).N) (Proc.devRef .tc main_v2)
        = rowsSpread (V m c main_v1) :=
      (Pipeline.withArrays_arr spec0 launch0.win.arr_inj c _ _ 1).trans (final m c)
    rw [harr]
    rfl
  rw [htail]
  funext i
  obtain ⟨b, j, h, w, rfl⟩ : ∃ (b : Fin 64) (j : Fin 384) (h w : Fin 56), i = ix4 b j h w := ⟨i 0, i 1, i 2, i 3, eq_ix4 i⟩
  have hb := b.isLt; have hh := h.isLt; have hw := w.isLt; have hj := j.isLt
  rw [spread_apply]
  refine (transpose_apply [0, 3, 1, 2] _ Facts₀.transposes_S64x56x56x384_S64x384x56x56_0_3_1_2 (ix4 b j h w : S64x384x56x56.Idx)
    (ix4 b h w j : S64x56x56x384.Idx) fun a => ?_).trans ?_
  · match a with
    | ⟨0, _⟩ => rfl
    | ⟨1, _⟩ => rfl
    | ⟨2, _⟩ => rfl
    | ⟨3, _⟩ => rfl
  refine (shapeCast_apply _ Facts₀.shapeCasts_S200704x384_S64x56x56x384 (ix4 b h w j : S64x56x56x384.Idx) (ix2 (row b h w) j) ?_).trans ?_
  · rw [Shape.rowMajor_val_four, Shape.rowMajor_val_two]
    show ((b.val * 56 + h.val) * 56 + w.val) * 384 + j.val = ((b.val * 56 + h.val) * 56 + w.val) * 384 + j.val
    rfl
  rw [rowsSpread_apply]
  by_cases hp : j.val % 2 = 0
  · rw [if_pos hp, if_pos hp]
    exact input_apply m c b h w (half j)
  · rw [if_neg hp, if_neg hp]

/-- THE RUN: every weakly fair execution of the idealized kernel's program terminates with its result array at
    `spread` of the argument and the argument unchanged. -/
theorem run : θ_run (defs (F := Ideal)) (onTc (τ := τ) (main (F := Ideal))) ⟨m, fun _ => 0, ρ⟩ fun r => ∀ c : Dev nD,
      r.2.mem ((c.tc : Thread nD τ).loc main_v4) = spread (m ((c.tc : Thread nD τ).loc main_arg0))
      ∧ r.2.mem ((c.tc : Thread nD τ).loc main_arg0) = m ((c.tc : Thread nD τ).loc main_arg0) :=
  (θ_run defs _ _).mono (fun _ hr c =>
      ⟨((hr c).2 main_v4 (Pipeline.mem_restRefs_of main_v4 (by decide) (by decide))).trans (result_eq m c),
       ((hr c).2 main_arg0 (Pipeline.mem_restRefs_of main_arg0 (by decide) (by decide))).trans (W_main_arg0 m (dats m) c)⟩)
    (run_main m ρ)

end Cert.KernelIdeal.RunValue

end
-- ==== Proof.RefRun.lean ====
/-
  The reference program's @main as the list of its twelve host operations, and its run read back.

  The operations, in order: the table of even channels (a constant of 192 words), the zero scalar and its broadcast to
  the result's extents, the fix-up of negative indices (compare with zero, add 384, select), the table as a [192, 1]
  array of one-component start indices, and one scatter that replaces.  Every execution ends with the result array at
  the composition of these operations' functions applied to the argument's contents (`refTerm`), the argument
  unchanged.
-/
import proofs.«132591_g80788334838274_cont_9to1_m_29_5_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 12 operations, in order. -/
abbrev ops : List (HloOp τ sig (Elt F)) :=
  [ nullary main_c (fun i => lit0 (S192.rowMajor i)),
    nullary main_cst (constant S_ .f32 0x00000000#32),
    unary main_cst main_v0 (broadcastInDim S64x384x56x56 ![] bcast_S_S64x384x56x56 : (⟨S_, .f32⟩ : BufTy).Contents (Elt F) → (⟨S64x384x56x56, .f32⟩ : BufTy).Contents (Elt F)),
    nullary main_c_0 (constantI S_ 32 0#32),
    unary main_c_0 main_v1 (broadcastInDim S192 ![] bcast_S_S192 : (⟨S_, .i32⟩ : BufTy).Contents (Elt F) → (⟨S192, .i32⟩ : BufTy).Contents (Elt F)),
    binary main_c main_v1 main_v2 (cmpi .slt : (⟨S192, .i32⟩ : BufTy).Contents (Elt F) → (⟨S192, .i32⟩ : BufTy).Contents (Elt F) → (⟨S192, .i1⟩ : BufTy).Contents (Elt F)),
    nullary main_c_1 (constantI S_ 32 384#32),
    unary main_c_1 main_v3 (broadcastInDim S192 ![] bcast_S_S192 : (⟨S_, .i32⟩ : BufTy).Contents (Elt F) → (⟨S192, .i32⟩ : BufTy).Contents (Elt F)),
    binary main_c main_v3 main_v4 (addi : (⟨S192, .i32⟩ : BufTy).Contents (Elt F) → (⟨S192, .i32⟩ : BufTy).Contents (Elt F) → (⟨S192, .i32⟩ : BufTy).Contents (Elt F)),
    ternary main_v2 main_v4 main_c main_v5 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v5 main_v6 (broadcastInDim S192x1 ![0] bcast_S192_S192x1_0 : (⟨S192, .i32⟩ : BufTy).Contents (Elt F) → (⟨S192x1, .i32⟩ : BufTy).Contents (Elt F)),
    ternary main_v0 main_v6 main_arg0 main_v7 ((fun x i u => Host.scatter scatter_S64x384x56x56_S192x1_S64x192x56x56_023_1_1_1 (fun _ b => b) x i u) : (⟨S64x384x56x56, .f32⟩ : BufTy).Contents (Elt F) → (⟨S192x1, .i32⟩ : BufTy).Contents (Elt F) → (⟨S64x192x56x56, .f32⟩ : BufTy).Contents (Elt F) → (⟨S64x384x56x56, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., nullary_bufs_sub .., unary_bufs_sub .., binary_bufs_sub ..,
   nullary_bufs_sub .., unary_bufs_sub .., binary_bufs_sub .., ternary_bufs_sub .., unary_bufs_sub .., ternary_bufs_sub ..⟩

/-- The table of even channels: word `k` of the constant. -/
def table : IVec S192 32 := fun i => lit0 (S192.rowMajor i)

/-- The table after the fix-up of negative indices (an entry below zero has 384 added), as a [192, 1] array: the
    scatter's start indices, one component each. -/
def startIdx : IVec S192x1 32 :=
  broadcastInDim S192x1 ![0] bcast_S192_S192x1_0
    (select (cmpi .slt table (broadcastInDim S192 ![] bcast_S_S192 (constantI S_ 32 0#32)))
      (addi table (broadcastInDim S192 ![] bcast_S_S192 (constantI S_ 32 384#32))) table)

/-- The zero array of the result's extents: the scatter's operand. -/
def zeros : FVec F S64x384x56x56 .f32 :=
  broadcastInDim S64x384x56x56 ![] bcast_S_S64x384x56x56 (constant S_ .f32 0x00000000#32)

/-- The operations' composed function of the argument's contents `x`: `x` scattered, replacing, into the zero array
    at the start indices. -/
def refTerm (x : FVec F S64x192x56x56 .f32) : FVec F S64x384x56x56 .f32 :=
  Host.scatter scatter_S64x384x56x56_S192x1_S64x192x56x56_023_1_1_1 (fun _ b => b) zeros startIdx x

/-- On every device, for any float values, from any memory with zero counters: every weakly fair execution of
    @main terminates with the result at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (by after_results; rfl),
      (h c main_arg0).trans (by after_results)⟩)
    (run_seq scopedRefs_eq scopedSems_eq defs main (fun _ => ops) main_eq (fun _ => ops_sub) m ρ)

end Cert.ReferenceIdeal.HandRun

end
-- ==== Proof.LibScatterSet.lean ====
import Idealize.ShloMosaic.PureOps.ShapeOps

/-!
  # Reading a replacing scatter at one index

  `Host.scatter d f x idx upd` is a left fold over the update indices in row-major order: each update index `j`
  either lands at a result index (`d.resultIdx? j idx = some i`) and replaces the element there by `f` of the old
  element and `upd j`, or is dropped (`none`).  When the body is the replacement `fun _ b => b` (an `.at[…].set`),
  the fold can be read at one result index `i` without running it:

  * `scatter_set_apply_of_unique`: if exactly one update index `j₀` lands at `i`, the result at `i` is `upd j₀`;
  * `scatter_set_apply_of_none`: if no update index lands at `i`, the result at `i` is the operand's `x i`.

  Both hold for every `ScatterDims`, operand, scatter indices and updates.  They follow from two lemmas about the fold
  of the step over an ARBITRARY list of update positions (`foldl_step_apply_of_none`, `foldl_step_apply_of_unique`),
  proved by induction on the list with the accumulator generalized: a step whose update lands elsewhere, or is
  dropped, leaves position `i` alone, and the step of the one update that lands at `i` writes its value there.
-/

namespace Cert.ScatterSet

open Idealize.ShloMosaic

variable {s si u : Shape} {w : Nat} {α : Type}

/-- One step of the replacing scatter: the update at row-major position `n` written into the accumulator `r`
    where it lands, or dropped. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The replacing scatter is the fold of `step` over all update positions, starting from the operand. -/
theorem scatter_eq_foldl (d : ScatterDims s si u) (x : s.Idx → α) (idx : IVec si w) (upd : u.Idx → α) :
    Host.scatter d (fun _ b => b) x idx upd = (List.finRange u.numel).foldl (step d idx upd) x := rfl

/-- A step whose update lands at `i` leaves the update's value there. -/
theorem step_apply_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- A step whose update does not land at `i` (it lands elsewhere, or is dropped) leaves position `i` alone. -/
theorem step_apply_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h ⊢
  match o, h with
  | none, _ => rfl
  | some i₁, h => exact if_neg (fun e => h (by rw [e]))

/-- Folding the steps of a list none of whose updates lands at `i` leaves position `i` of the accumulator alone. -/
theorem foldl_step_apply_of_none (d : ScatterDims s si u) (idx : IVec si w) (upd : u.Idx → α) (i : s.Idx)
    (l : List (Fin u.numel)) (r : s.Idx → α)
    (hnone : ∀ n ∈ l, d.resultIdx? (u.rowMajor.symm n) idx ≠ some i) :
    l.foldl (step d idx upd) r i = r i := by
  induction l generalizing r with
  | nil => rfl
  | cons n l ih =>
    rw [List.foldl_cons, ih (step d idx upd r n) (fun m hm => hnone m (List.mem_cons_of_mem n hm))]
    exact step_apply_of_ne d idx upd r n i (hnone n List.mem_cons_self)

/-- Folding the steps of a list in which only the position `n₀` lands at `i`: if `n₀` is in the list, or the
    accumulator already holds `n₀`'s update at `i`, the result holds it at `i`. -/
theorem foldl_step_apply_of_unique (d : ScatterDims s si u) (idx : IVec si w) (upd : u.Idx → α) (i : s.Idx)
    (n₀ : Fin u.numel) (h₀ : d.resultIdx? (u.rowMajor.symm n₀) idx = some i)
    (l : List (Fin u.numel)) (r : s.Idx → α)
    (huniq : ∀ n ∈ l, d.resultIdx? (u.rowMajor.symm n) idx = some i → n = n₀)
    (hmem : n₀ ∈ l ∨ r i = upd (u.rowMajor.symm n₀)) :
    l.foldl (step d idx upd) r i = upd (u.rowMajor.symm n₀) := by
  induction l generalizing r with
  | nil =>
    rcases hmem with hmem | hr
    · exact absurd hmem List.not_mem_nil
    · exact hr
  | cons n l ih =>
    rw [List.foldl_cons]
    refine ih (step d idx upd r n) (fun m hm => huniq m (List.mem_cons_of_mem n hm)) ?_
    by_cases hn : d.resultIdx? (u.rowMajor.symm n) idx = some i
    · -- this update lands at `i`: it is the one
      have hnn : n = n₀ := huniq n List.mem_cons_self hn
      right
      rw [step_apply_of_eq d idx upd r n i hn, hnn]
    · -- this update does not land at `i`: it is not `n₀`, and position `i` keeps what it had
      have hne : n₀ ≠ n := fun e => hn (e ▸ h₀)
      rcases hmem with hmem | hr
      · left
        rcases List.mem_cons.1 hmem with e | hm
        · exact absurd e hne
        · exact hm
      · right
        rw [step_apply_of_ne d idx upd r n i hn, hr]

/-- **A replacing scatter at an index exactly one update lands at.**  If update index `j₀` lands at `i` and it is
    the only one that does, the result at `i` is `upd j₀`. -/
theorem scatter_set_apply_of_unique (d : ScatterDims s si u) (x : s.Idx → α) (idx : IVec si w) (upd : u.Idx → α)
    (i : s.Idx) (j₀ : u.Idx) (h₀ : d.resultIdx? j₀ idx = some i)
    (huniq : ∀ j, d.resultIdx? j idx = some i → j = j₀) :
    Host.scatter d (fun _ b => b) x idx upd i = upd j₀ := by
  rw [scatter_eq_foldl]
  have h₀' : d.resultIdx? (u.rowMajor.symm (u.rowMajor j₀)) idx = some i := by
    rw [Equiv.symm_apply_apply]; exact h₀
  have key := foldl_step_apply_of_unique d idx upd i (u.rowMajor j₀) h₀' (List.finRange u.numel) x
    (fun n _ hn => by
      have := huniq (u.rowMajor.symm n) hn
      rw [← this, Equiv.apply_symm_apply])
    (Or.inl (List.mem_finRange _))
  rw [key, Equiv.symm_apply_apply]

/-- **A replacing scatter at an index no update lands at.**  If no update index lands at `i`, the result at `i` is
    the operand's element. -/
theorem scatter_set_apply_of_none (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_step_apply_of_none d idx upd i (List.finRange u.numel) x (fun n _ => hnone _)

end Cert.ScatterSet
-- ==== Proof.RefSpread.lean ====
/-
  The reference's result array is the argument spread over the even channels.

  The reference scatters the argument `x` (extents [64, 192, 56, 56]) into a zero array of extents
  [64, 384, 56, 56], replacing, with one start index per argument channel: channel `c` starts at entry `c` of the
  table of even channels, `2c`.  Update index `(b, c, h, w)` therefore lands at `(b, 2c, h, w)`: on the channel axis
  the start is the table's entry read signed (`2c < 2^31`, and the fix-up of negative entries never fires) and the
  window coordinate is `0`; on the other three axes the start is `0` and the window coordinate is the update's.
  Every landing index is inside the result, and distinct update indices land at distinct result indices.  So at a
  result index `(b, j, h, w)` with `j` even exactly the update `(b, j/2, h, w)` lands, and the result there is
  `x[b, j/2, h, w]`; with `j` odd no update lands, and the result is the zero array's element.  That is `spread x`.
-/
import proofs.«132591_g80788334838274_cont_9to1_m_29_5_alg».proof.Proof.RefRun
import proofs.«132591_g80788334838274_cont_9to1_m_29_5_alg».proof.Proof.LibScatterSet
import proofs.«132591_g80788334838274_cont_9to1_m_29_5_alg».proof.Proof.Spread
import Idealize.ShloMosaic.PureOps.Ideal.Laws
import Idealize.ShloMosaic.Lib.ValueIdx
import Idealize.ShloMosaic.Lib.Pipeline.Value
import Idealize.ShloMosaic.Lib.Decide

noncomputable section

namespace Cert.ReferenceIdeal.RefValue

open Cert.ReferenceIdeal Cert.ReferenceIdeal.Gen Cert.ReferenceIdeal.HandRun Idealize.ShloMosaic Idealize.ShloMosaic.TcCoe
  Idealize.SL.Sem Idealize.ShloMosaic.ValueIdx

/-- The scatter's dimension numbers: window axes 0, 2, 3 of the update, axis 1 of the operand inserted and
    scattered to, one-component start indices along axis 1 of the [192, 1] array. -/
abbrev D : ScatterDims S64x384x56x56 S192x1 S64x192x56x56 := scatter_S64x384x56x56_S192x1_S64x192x56x56_023_1_1_1

/-! ## The start indices: entry `c` is `2c` -/

/-- The fix-up of one table entry: 384 added when it is negative. -/
def fix (v : BitVec 32) : BitVec 32 := Scalar.select (IntOp.cmpi .slt v 0#32) (IntOp.addi v 384#32) v

/-- Every entry of the table is non-negative, so the fix-up leaves it: read signed, entry `n` is `2n`. -/
theorem fix_lit0_toInt : ∀ n : Fin 192, (fix (lit0 n)).toInt = 2 * (n.val : Int) := by decide +kernel

/-- The [192, 1] array of start indices at `k` is the fixed-up table entry at `k`'s first coordinate. -/
theorem startIdx_eq (k : S192x1.Idx) (n : Fin 192) (hn : n.val = (k 0).val) : startIdx k = fix (lit0 n) := by
  have hr : S192.rowMajor (ix1 n) = n := Fin.ext (Shape.rowMajor_val_one _)
  unfold startIdx
  rw [broadcastInDim_apply ![0] bcast_S192_S192x1_0 _ k (ix1 n) (by intro a; match a with | ⟨0, _⟩ => exact hn)]
  show fix (lit0 (S192.rowMajor (ix1 n))) = _
  rw [hr]

/-- Read signed, the start index at `k` is twice `k`'s first coordinate. -/
theorem startIdx_toInt (k : S192x1.Idx) : (startIdx k).toInt = 2 * ((k 0).val : Int) := by
  rw [startIdx_eq k ⟨(k 0).val, (k 0).isLt⟩ rfl, fix_lit0_toInt]

/-! ## Where an update index lands -/

section Landing
variable (b : Fin 64) (c : Fin 192) (h w : Fin 56)

/-- The window coordinates of update index `(b, c, h, w)`: its own on axes 0, 2, 3, zero on the inserted axis 1. -/
theorem window0 : D.window (ix4 b c h w) 0 = b.val := rfl
theorem window1 : D.window (ix4 b c h w) 1 = 0 := rfl
theorem window2 : D.window (ix4 b c h w) 2 = h.val := rfl
theorem window3 : D.window (ix4 b c h w) 3 = w.val := rfl

/-- The window's start: zero on the axes the start index does not name … -/
theorem start0 (idx : IVec S192x1 32) : D.start (ix4 b c h w) idx 0 = 0 := rfl
theorem start2 (idx : IVec S192x1 32) : D.start (ix4 b c h w) idx 2 = 0 := rfl
theorem start3 (idx : IVec S192x1 32) : D.start (ix4 b c h w) idx 3 = 0 := rfl
/-- … and on the channel axis the table's entry for channel `c`, `2c`. -/
theorem start1 : D.start (ix4 b c h w) startIdx 1 = 2 * (c.val : Int) := by
  unfold ScatterDims.start
  rw [dif_pos (by decide), startIdx_toInt]
  rfl

/-- The result index update index `(b, c, h, w)` lands at: `(b, 2c, h, w)`. -/
def land : S64x384x56x56.Idx := ix4 b ⟨2 * c.val, by have := c.isLt; omega⟩ h w

/-- Start plus window coordinate, axis by axis, is the landing index's coordinate. -/
theorem start_add_window (a : Fin S64x384x56x56.rank) :
    D.start (ix4 b c h w) startIdx a + (D.window (ix4 b c h w) a : Int) = ((land b c h w a).val : Int) := by
  match a with
  | ⟨0, _⟩ =>
    exact (by rw [start0, window0, Int.zero_add] :
      D.start (ix4 b c h w) startIdx 0 + (D.window (ix4 b c h w) 0 : Int) = (b.val : Int))
  | ⟨1, _⟩ =>
    exact (by rw [start1, window1, Int.natCast_zero, Int.add_zero]; rfl :
      D.start (ix4 b c h w) startIdx 1 + (D.window (ix4 b c h w) 1 : Int) = ((2 * c.val : Nat) : Int))
  | ⟨2, _⟩ =>
    exact (by rw [start2, window2, Int.zero_add] :
      D.start (ix4 b c h w) startIdx 2 + (D.window (ix4 b c h w) 2 : Int) = (h.val : Int))
  | ⟨3, _⟩ =>
    exact (by rw [start3, window3, Int.zero_add] :
      D.start (ix4 b c h w) startIdx 3 + (D.window (ix4 b c h w) 3 : Int) = (w.val : Int))

/-- Update index `(b, c, h, w)` is not dropped: it lands at `(b, 2c, h, w)`, inside the result. -/
theorem resultIdx_ix4 : D.resultIdx? (ix4 b c h w) startIdx = some (land b c h w) := by
  have hall : ∀ a, 0 ≤ D.start (ix4 b c h w) startIdx a + D.window (ix4 b c h w) a
      ∧ D.start (ix4 b c h w) startIdx a + D.window (ix4 b c h w) a < S64x384x56x56.size a := by
    intro a
    rw [start_add_window]
    exact ⟨Int.natCast_nonneg _, Int.ofNat_lt.2 (land b c h w a).isLt⟩
  unfold ScatterDims.resultIdx?
  rw [dif_pos hall]
  congr 1
  funext a
  apply Fin.ext
  show (D.start (ix4 b c h w) startIdx a + D.window (ix4 b c h w) a).toNat = (land b c h w a).val
  rw [start_add_window, Int.toNat_natCast]

end Landing

/-- Whatever update index lands at `i`, it is some `(b, c, h, w)` and `i` is `(b, 2c, h, w)`. -/
theorem eq_land_of_resultIdx (j : S64x192x56x56.Idx) (i : S64x384x56x56.Idx)
    (hj : D.resultIdx? j startIdx = some i) :
    ∃ (b : Fin 64) (c : Fin 192) (h w : Fin 56), j = ix4 b c h w ∧ i = land b c h w := by
  obtain ⟨b, c, h, w, rfl⟩ : ∃ (b : Fin 64) (c : Fin 192) (h w : Fin 56), j = ix4 b c h w :=
    ⟨j 0, j 1, j 2, j 3, eq_ix4 j⟩
  rw [resultIdx_ix4] at hj
  exact ⟨b, c, h, w, rfl, (Option.some.inj hj).symm⟩

/-! ## The scatter read at an index -/

/-- The zero array's element, at the extended reals. -/
theorem zeros_apply (i : S64x384x56x56.Idx) : (zeros (F := Ideal)) i = 0 := Ideal.ofBits_zero_f32

/-- The operations' composed function is `spread`. -/
theorem refTerm_eq_spread (x : FVec Ideal S64x192x56x56 .f32) : refTerm x = Cert.Spread.spread x := by
  funext i
  obtain ⟨b, j, h, w, rfl⟩ : ∃ (b : Fin 64) (j : Fin 384) (h w : Fin 56), i = ix4 b j h w :=
    ⟨i 0, i 1, i 2, i 3, eq_ix4 i⟩
  rw [Cert.Spread.spread_apply]
  unfold refTerm
  by_cases hp : j.val % 2 = 0
  · -- an even channel: exactly the update `(b, j/2, h, w)` lands here
    rw [if_pos hp]
    have hjj : (⟨2 * (Cert.Spread.half j).val, by have := (Cert.Spread.half j).isLt; omega⟩ : Fin 384) = j :=
      Fin.ext (by show 2 * (Cert.Spread.half j).val = j.val; rw [Cert.Spread.half_val]; omega)
    have hland : land b (Cert.Spread.half j) h w = ix4 b j h w := by
      unfold land; rw [hjj]
    refine Cert.ScatterSet.scatter_set_apply_of_unique D zeros startIdx x (ix4 b j h w)
      (ix4 b (Cert.Spread.half j) h w) (by rw [resultIdx_ix4, hland]) ?_
    intro j' hj'
    obtain ⟨b', c', h', w', rfl, hi⟩ := eq_land_of_resultIdx j' _ hj'
    have e0 : b = b' := congrFun hi 0
    have e1 : j = ⟨2 * c'.val, by have := c'.isLt; omega⟩ := congrFun hi 1
    have e2 : h = h' := congrFun hi 2
    have e3 : w = w' := congrFun hi 3
    have ec : c' = Cert.Spread.half j :=
      Fin.ext (by rw [Cert.Spread.half_val, e1]; show c'.val = 2 * c'.val / 2; omega)
    rw [← e0, ← e2, ← e3, ec]
  · -- an odd channel: every update lands at an even one, so none lands here
    rw [if_neg hp]
    rw [Cert.ScatterSet.scatter_set_apply_of_none D zeros startIdx x (ix4 b j h w) (fun j' hj' => by
      obtain ⟨b', c', h', w', _, hi⟩ := eq_land_of_resultIdx j' _ hj'
      have e1 : j = ⟨2 * c'.val, by have := c'.isLt; omega⟩ := congrFun hi 1
      apply hp
      rw [e1]
      show 2 * c'.val % 2 = 0
      omega)]
    exact zeros_apply _

/-! ## The run -/

/-- Every execution of the reference ends with the result array at `spread` of the argument, the argument
    unchanged. -/
theorem run_spread (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = Cert.Spread.spread (m ((c.tc : Thread nD τ).loc main_arg0))
      ∧ r.2.mem ((c.tc : Thread nD τ).loc main_arg0) = m ((c.tc : Thread nD τ).loc main_arg0) :=
  (θ_run (defs (F := Ideal)) _ _).mono
    (fun _ hr c => ⟨(hr c).1.trans (refTerm_eq_spread _), (hr c).2⟩)
    (HandRun.run m ρ)

end Cert.ReferenceIdeal.RefValue

end
-- ==== Proof.lean ====
/-
  Zero-interleaving along the channel axis: a kernel that multiplies by a zero-one expansion matrix against a
  reference that scatters into zeros.

  Both programs take `x` of extents [64, 192, 56, 56] and return an array of extents [64, 384, 56, 56] whose even
  channel `2c` is channel `c` of `x` and whose odd channels are zero (`Cert.Spread.spread`).

  The reference builds an array of zeros and writes `x` into it at the channel indices 0, 2, 4, …, 382; those
  indices are pairwise distinct and in range, so each even channel receives exactly one channel of `x` and each odd
  channel keeps its zero.

  The kernel moves the channel axis last, flattens the other three axes into 200704 rows, and multiplies each block of
  4096 rows by the 192 × 384 matrix `E` with `E[c, 2c] = 1` and zeros elsewhere, accumulating from zero; then it undoes
  the flattening and the transposition. On the extended reals an entry of the product is `Σ_c row[c] · E[c, j]`; a
  product with zero is zero whatever the other factor, so the sum is `row[j / 2]` for even `j` and `0` for odd `j`. No
  finiteness of `x` is needed for the equality of the two results.

  The idealization rewrote nothing, so the kernel's idealized program is its own text read over the extended reals.
-/
import proofs.«132591_g80788334838274_cont_9to1_m_29_5_alg».proof.Defs
import proofs.«132591_g80788334838274_cont_9to1_m_29_5_alg».proof.Proof.Gen.Kernel
import proofs.«132591_g80788334838274_cont_9to1_m_29_5_alg».proof.Proof.Gen.Kernel.Skeleton
import proofs.«132591_g80788334838274_cont_9to1_m_29_5_alg».proof.Proof.Gen.Kernel.Launch
import proofs.«132591_g80788334838274_cont_9to1_m_29_5_alg».proof.Proof.Gen.Kernel.Points
import proofs.«132591_g80788334838274_cont_9to1_m_29_5_alg».proof.Proof.Gen.Kernel.Frame
import proofs.«132591_g80788334838274_cont_9to1_m_29_5_alg».proof.Proof.Gen.KernelIdeal
import proofs.«132591_g80788334838274_cont_9to1_m_29_5_alg».proof.Proof.Gen.KernelIdeal.Skeleton
import proofs.«132591_g80788334838274_cont_9to1_m_29_5_alg».proof.Proof.Gen.KernelIdeal.Launch
import proofs.«132591_g80788334838274_cont_9to1_m_29_5_alg».proof.Proof.Gen.KernelIdeal.Points
import proofs.«132591_g80788334838274_cont_9to1_m_29_5_alg».proof.Proof.Gen.KernelIdeal.Frame
import proofs.«132591_g80788334838274_cont_9to1_m_29_5_alg».proof.Proof.Gen.ReferenceIdeal
import proofs.«132591_g80788334838274_cont_9to1_m_29_5_alg».proof.Proof.Gen.Pre_finite_inputs
import proofs.«132591_g80788334838274_cont_9to1_m_29_5_alg».proof.Proof.KRun
import proofs.«132591_g80788334838274_cont_9to1_m_29_5_alg».proof.Proof.RefSpread
import Idealize.ShloMosaic.Adequacy
import Idealize.ShloMosaic.Init

noncomputable section

namespace Cert.Proof

open Idealize.ShloMosaic Idealize.SL.Sem

namespace Claims

/-- The kernel's program as printed runs and leaves its argument alone. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its argument alone: its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_spread m ρ)

/-- Both programs, from memories that agree on the argument, end with their result arrays at `spread` of that
    argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spread.spread (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun _ h c => ⟨(h c).1.trans ?_, (h c).2⟩)
    (Cert.ReferenceIdeal.RefValue.run_spread m' ρ')
  rw [hagree c]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, trivial, Claims.algebraic⟩

end Cert.Proof

end
